-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S8192 : Shape := ⟨1, ![8192]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S8192x1024 .f32) (main_arg1 : FVec F S8192 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192 .f32 := Host.absf main_arg1
  let main_cst_0 : FVec F S_ .f32 := constant S_ .f32 0x7F800000#32
  let main_v5 : FVec F S8192 .f32 := broadcastInDim S8192 ![] bcast_S_S8192 main_cst_0
  let main_v6 : IVec S8192 1 := cmpf .olt main_v4 main_v5
  let main_c_1 : IVec S_ 1 := constantI S_ 1 1#1
  let main_v7 : IVec S_ 1 := (fun x v => Host.reduce IntOp.andi x v reducesTo_S8192_S_d0 h_S_) main_v6 main_c_1
  let main_v8 : IVec S_ 1 := andi main_v3 main_v7
  main_v8
-- ==== Kernel.lean ====
abbrev S8192x1024 : Shape := ⟨2, ![8192, 1024]⟩
abbrev S8192 : Shape := ⟨1, ![8192]⟩
abbrev S_ : Shape := ⟨0, ![]⟩
abbrev S8192x1 : Shape := ⟨2, ![8192, 1]⟩
abbrev S8192x3 : Shape := ⟨2, ![8192, 3]⟩
abbrev S8192x256 : Shape := ⟨2, ![8192, 256]⟩
abbrev S256 : Shape := ⟨1, ![256]⟩
abbrev S1x256 : Shape := ⟨2, ![1, 256]⟩

abbrev nBuf : Space → Nat
  | .hbm => 20
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S8192, .f32⟩
  | .hbm, ⟨2, _⟩ => ⟨S_, .f32⟩
  | .hbm, ⟨3, _⟩ => ⟨S8192, .f32⟩
  | .hbm, ⟨4, _⟩ => ⟨S8192, .f32⟩
  | .hbm, ⟨5, _⟩ => ⟨S8192, .f32⟩
  | .hbm, ⟨6, _⟩ => ⟨S8192, .f32⟩
  | .hbm, ⟨7, _⟩ => ⟨S_, .f32⟩
  | .hbm, ⟨8, _⟩ => ⟨S8192, .f32⟩
  | .hbm, ⟨9, _⟩ => ⟨S8192, .i1⟩
  | .hbm, ⟨10, _⟩ => ⟨S8192, .f32⟩
  | .hbm, ⟨11, _⟩ => ⟨S8192, .f32⟩
  | .hbm, ⟨12, _⟩ => ⟨S8192, .f32⟩
  | .hbm, ⟨13, _⟩ => ⟨S8192, .f32⟩
  | .hbm, ⟨14, _⟩ => ⟨S8192, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x3, .f32⟩
  | .hbm, ⟨19, _⟩ => ⟨S8192x1024, .f32⟩
  | .local _ .vmem, ⟨0, _⟩ => ⟨S8192x256, .f32⟩
  | .local _ .vmem, ⟨1, _⟩ => ⟨S8192x256, .f32⟩
  | .local _ .vmem, ⟨2, _⟩ => ⟨S8192x3, .f32⟩
  | .local _ .vmem, ⟨3, _⟩ => ⟨S8192x256, .f32⟩
  | .local _ .vmem, ⟨4, _⟩ => ⟨S8192x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8192x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8192x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  concatenates_S8192x1_S8192x1_S8192x1_S8192x3_d1 : Shape.Concatenates [S8192x1, S8192x1, S8192x1] S8192x3 1
  inb_S8192x256_S8192x256_0_0 : ∀ a, (![0, 0] : Fin 2 → Nat) a + S8192x256.size a ≤ S8192x256.size a
  h_S8192x256 : 0 < S8192x256.numel
  inb_S8192x3_S8192x1_0_0 : ∀ a, (![0, 0] : Fin 2 → Nat) a + S8192x1.size a ≤ S8192x3.size a
  h_S8192x1 : 0 < S8192x1.numel
  shapeCasts_S8192x1_S8192x1 : S8192x1.ShapeCasts S8192x1
  inb_S8192x3_S8192x1_0_1 : ∀ a, (![0, 1] : Fin 2 → Nat) a + S8192x1.size a ≤ S8192x3.size a
  inb_S8192x3_S8192x1_0_2 : ∀ a, (![0, 2] : Fin 2 → Nat) a + S8192x1.size a ≤ S8192x3.size a
  reduces_S8192x256_S256 : S8192x256.Reduces [0] S256
  shapeCasts_S256_S1x256 : S256.ShapeCasts S1x256
  broadcasts_S1x256_S8192x256 : S1x256.Broadcasts S8192x256
  broadcasts_S8192x1_S8192x256 : S8192x1.Broadcasts S8192x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x256.size a ≤ S8192x1024.size a
  hwx0_0 : ∀ i : grid0.Coords, EltTy.bits .f32 = 32 ∨ (Rect.block (s := S8192x1024) S8192x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x3.size a ≤ S8192x3.size a
  hwx0_1 : ∀ i : grid0.Coords, EltTy.bits .f32 = 32 ∨ (Rect.block (s := S8192x3) S8192x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x256.size a ≤ S8192x1024.size a
  hwx0_2 : ∀ i : grid0.Coords, EltTy.bits .f32 = 32 ∨ (Rect.block (s := S8192x1024) S8192x256.size (cc0_transform_2 i) (hinb0_2 i)).WholeWords (EltTy.packing .f32)

variable [Facts₀]

abbrev win0_0 : Pipeline.Window sig grid0 :=
  Pipeline.Window.ofSpec (Memref.whole main_arg0) S8192x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S8192x3.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S8192x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S8192 : Shape := ⟨1, ![8192]⟩
abbrev S_ : Shape := ⟨0, ![]⟩
abbrev S8192x8192 : Shape := ⟨2, ![8192, 8192]⟩
abbrev S8192x1 : Shape := ⟨2, ![8192, 1]⟩
abbrev S1024 : Shape := ⟨1, ![1024]⟩
abbrev S1x1024 : Shape := ⟨2, ![1, 1024]⟩

abbrev nBuf : Space → Nat
  | .hbm => 33
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192, .f32⟩
  | .hbm, ⟨2, _⟩ => ⟨S_, .f32⟩
  | .hbm, ⟨3, _⟩ => ⟨S8192, .f32⟩
  | .hbm, ⟨4, _⟩ => ⟨S8192x8192, .i32⟩
  | .hbm, ⟨5, _⟩ => ⟨S8192x8192, .i32⟩
  | .hbm, ⟨6, _⟩ => ⟨S_, .i32⟩
  | .hbm, ⟨7, _⟩ => ⟨S8192x8192, .i32⟩
  | .hbm, ⟨8, _⟩ => ⟨S8192x8192, .i32⟩
  | .hbm, ⟨9, _⟩ => ⟨S8192x8192, .i1⟩
  | .hbm, ⟨10, _⟩ => ⟨S8192x1, .f32⟩
  | .hbm, ⟨11, _⟩ => ⟨S_, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S1024, .f32⟩
  | .hbm, ⟨20, _⟩ => ⟨S1x1024, .f32⟩
  | .hbm, ⟨21, _⟩ => ⟨S8192x8192, .f32⟩
  | .hbm, ⟨22, _⟩ => ⟨S8192x8192, .f32⟩
  | .hbm, ⟨23, _⟩ => ⟨S8192x8192, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_c : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_cst_0 : Ref sig .tc := ⟨.hbm, 11, rfl⟩
abbrev main_call0_call0_v0 : Ref sig .tc := ⟨.hbm, 12, rfl⟩
abbrev main_call0_call0_v1 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_cst_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩

abbrev nD : Nat := 1
abbrev τ : Topo := Topo.v7x

variable {F : FTy → Type} [FloatOps F]

class Facts₀ : Prop where
  pads_S8192_S8192_000 : S8192.Pads (![0] : Fin 1 → Nat) ![0] ![0] S8192
  h_S_ : 0 < S_.numel
  bcast_S_S8192x8192 : S_.BroadcastsInDim S8192x8192 (![] : Fin 0 → Fin S8192x8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  reducesTo_S8192x8192_S8192_d1 : S8192x8192.ReducesTo [1] S8192
  reducesTo_S8192x1024_S1024_d0 : S8192x1024.ReducesTo [0] S1024
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  bcast_S8192x1_S8192x1024_0_1 : S8192x1.BroadcastsInDim S8192x1024 (![0, 1] : Fin 2 → Fin S8192x1024.rank)
  dot_S8192x8192_S8192x1024_S8192x1024_1_0_0_1_n_n_wf : DotDims.WF S8192x8192 S8192x1024 S8192x1024 [1] [0] [0] [1] [] []

variable [Facts₀]

def dot_S8192x8192_S8192x1024_S8192x1024_1_0_0_1_n_n : DotDims S8192x8192 S8192x1024 S8192x1024 where
  lhsContracting := [1]
  rhsContracting := [0]
  lhsNonContracting := [0]
  rhsNonContracting := [1]
  lhsBatch := []
  rhsBatch := []
  wf := dot_S8192x8192_S8192x1024_S8192x1024_1_0_0_1_n_n_wf

class Facts : Prop extends Facts₀ where

variable [Facts]
-- ==== Proof.KEntry.lean ====
/-
  The kernel program as printed up to its one launch: the contents of each buffer when the launch is entered (after the
  three stretches of host operations), that the entry function is those stretches followed by the launch, and that no
  host operation writes either argument array, so the launch finds both as they were given.
-/
import proofs.«406681_j1348619731342_3_alg».proof.Proof.Gen.Kernel.Launch
import proofs.«406681_j1348619731342_3_alg».proof.Proof.Gen.Kernel.Skeleton
import proofs.«406681_j1348619731342_3_alg».proof.Proof.Gen.Kernel.Points
import Idealize.ShloMosaic.Lib.Pipeline.FrameBody
import Idealize.ShloMosaic.Lib.StableHlo.Run

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel Cert.Kernel.Gen

variable {F : FTy → Type} [FloatOps F]

variable (m : (ℓ : Loc nD τ sig) → Buf (Elt F) ℓ) (ρ : Dev nD → PrngReg)

/-- A core's buffers when the launch is entered: after the three stretches of host operations. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

/-- The entry function is the host stretches followed by the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- No host operation writes the matrix argument. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.nary_writes, Finset.mem_singleton]
    repeat' apply And.intro
    all_goals exact StableHlo.devRef_ne_of_ne (by decide)))
/-- No host operation writes the diagonal argument. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.nary_writes, Finset.mem_singleton]
    repeat' apply And.intro
    all_goals exact StableHlo.devRef_ne_of_ne (by decide)))

end Cert.Kernel.Hand

end
-- ==== Proof.KFrame.lean ====
/-
  The frame of the kernel program as printed, at any float instance: each window's block at a grid point read off its
  array as the launch finds it; what one run of the kernel body leaves in the output window's buffer (its one store, of
  the body's value over the loaded blocks); the body's triple; the pipeline's proof data; the body obligation at every
  grid point; the run of the whole entry function; and the frame claim (it terminates, nothing faults, both arguments
  end as they were given).
-/
import proofs.«406681_j1348619731342_3_alg».proof.Proof.KEntry
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The matrix window's staging buffer holds its block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The statistics window's staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the launch-entry contents, a run to the library's frame post read at the two
    argument arrays — the staged matrix by the library's lemma for a staged input, the diagonal vector as an array no
    window stages — is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c)⟩) h

/-! ## The body's accesses -/

abbrev r0_0 : Rect S8192x256 := Rect.unit (s := S8192x256) ![0, 0] S8192x256.size inb_S8192x256_S8192x256_0_0
abbrev r0_1 : Rect S8192x3 := Rect.unit (s := S8192x3) ![0, 0] S8192x1.size inb_S8192x3_S8192x1_0_0
abbrev r0_2 : Rect S8192x3 := Rect.unit (s := S8192x3) ![0, 1] S8192x1.size inb_S8192x3_S8192x1_0_1
abbrev r0_3 : Rect S8192x3 := Rect.unit (s := S8192x3) ![0, 2] S8192x1.size inb_S8192x3_S8192x1_0_2

/-! ## What the body leaves in the output window's buffer -/

/-- The output window's staging buffer after the body: its one store, of the body's value over the loaded block of the
    matrix and the three loaded columns of the statistics. -/
def out0_2 (x0 : Vec F S8192x256 .f32) (x1 : Vec F S8192x3 .f32) : Vec F S8192x256 .f32 :=
  View.canon [⟨r0_0, k0_pay1 (View.ld x0 r0_0) (View.ld x1 r0_1) (View.ld x1 r0_2) (View.ld x1 r0_3)⟩]

/-- The store covers the buffer. -/
theorem cover0_2 (p0 : Vec F S8192x256 .f32) (y : S8192x256.Idx) :
    ∃ pc ∈ ([⟨r0_0, p0⟩] : List (View.Piece (Elt F) S8192x256 .f32)), y ∈ pc.1.set :=
  View.cover_of_tiled [⟨r0_0, p0⟩] S8192x256.size (by rfl) y

/-! ## The body's triple -/

set_option maxHeartbeats 1000000 in
/-- The kernel body on whole staging memrefs, the inputs' at contents `x0`, `x1` and the output's at anything, runs to
    the continuation holding the inputs' as they were and the output's at `out0_2` of them. -/
theorem sound_kernel (c : Dev nD) (E : Set ℕ) (i : grid0.Coords) (arg1 : Memref sig .tc .vmem S8192x256 .f32) (harg1 : arg1.IsWhole) (arg2 : Memref sig .tc .vmem S8192x3 .f32) (harg2 : arg2.IsWhole) (arg3 : Memref sig .tc .vmem S8192x256 .f32) (harg3 : arg3.IsWhole)
    (x0 : Vec F S8192x256 .f32) (x1 : Vec F S8192x3 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__fused_kernel i arg1 harg1 arg2 harg2 arg3 harg3) K := by
  simp only [cc0__fused_kernel_eq_skeleton]; unfold cc0__fused_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the one pipeline on a core: the arrays as the launch finds them; after the body at point `t` each
    input's buffer at its block and the output's at `out0_2` of the input blocks; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks, so the body's triple applies; the invariant and the
    core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the entry function terminates, and every final state
    has every array of the pipeline at what the library computes from the proof data and every other unscoped buffer as
    the launch found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the entry function terminates, nothing faults, and both argument arrays end as they were given. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Hand

end
-- ==== Proof.KIEntry.lean ====
/-
  The idealized kernel program up to its one launch: the contents of each buffer when the launch is entered (after the
  three stretches of host operations), that the entry function is those stretches followed by the launch, and that no
  host operation writes either argument array, so the launch finds both as they were given.
-/
import proofs.«406681_j1348619731342_3_alg».proof.Proof.Gen.KernelIdeal.Launch
import proofs.«406681_j1348619731342_3_alg».proof.Proof.Gen.KernelIdeal.Skeleton
import proofs.«406681_j1348619731342_3_alg».proof.Proof.Gen.KernelIdeal.Points
import Idealize.ShloMosaic.Lib.Pipeline.FrameBody
import Idealize.ShloMosaic.Lib.StableHlo.Run

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

/-- A core's buffers when the launch is entered: after the three stretches of host operations. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

/-- The entry function is the host stretches followed by the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- No host operation writes the matrix argument. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.nary_writes, Finset.mem_singleton]
    repeat' apply And.intro
    all_goals exact StableHlo.devRef_ne_of_ne (by decide)))
/-- No host operation writes the diagonal argument. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.nary_writes, Finset.mem_singleton]
    repeat' apply And.intro
    all_goals exact StableHlo.devRef_ne_of_ne (by decide)))

end Cert.KernelIdeal.Hand

end
-- ==== Proof.KIFrame.lean ====
/-
  The frame of the idealized kernel program, at any float instance: each window's block at a grid point read off its
  array as the launch finds it; what one run of the kernel body leaves in the output window's buffer (its one store, of
  the body's value over the loaded blocks); the body's triple; the pipeline's proof data; the body obligation at every
  grid point; the run of the whole entry function; and the frame claim (it terminates, nothing faults, both arguments
  end as they were given).
-/
import proofs.«406681_j1348619731342_3_alg».proof.Proof.KIEntry
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The matrix window's staging buffer holds its block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The statistics window's staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the launch-entry contents, a run to the library's frame post read at the two
    argument arrays — the staged matrix by the library's lemma for a staged input, the diagonal vector as an array no
    window stages — is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c)⟩) h

/-! ## The body's accesses -/

abbrev r0_0 : Rect S8192x256 := Rect.unit (s := S8192x256) ![0, 0] S8192x256.size inb_S8192x256_S8192x256_0_0
abbrev r0_1 : Rect S8192x3 := Rect.unit (s := S8192x3) ![0, 0] S8192x1.size inb_S8192x3_S8192x1_0_0
abbrev r0_2 : Rect S8192x3 := Rect.unit (s := S8192x3) ![0, 1] S8192x1.size inb_S8192x3_S8192x1_0_1
abbrev r0_3 : Rect S8192x3 := Rect.unit (s := S8192x3) ![0, 2] S8192x1.size inb_S8192x3_S8192x1_0_2

/-! ## What the body leaves in the output window's buffer -/

/-- The output window's staging buffer after the body: its one store, of the body's value over the loaded block of the
    matrix and the three loaded columns of the statistics. -/
def out0_2 (x0 : Vec F S8192x256 .f32) (x1 : Vec F S8192x3 .f32) : Vec F S8192x256 .f32 :=
  View.canon [⟨r0_0, k0_pay1 (View.ld x0 r0_0) (View.ld x1 r0_1) (View.ld x1 r0_2) (View.ld x1 r0_3)⟩]

/-- The store covers the buffer. -/
theorem cover0_2 (p0 : Vec F S8192x256 .f32) (y : S8192x256.Idx) :
    ∃ pc ∈ ([⟨r0_0, p0⟩] : List (View.Piece (Elt F) S8192x256 .f32)), y ∈ pc.1.set :=
  View.cover_of_tiled [⟨r0_0, p0⟩] S8192x256.size (by rfl) y

/-! ## The body's triple -/

set_option maxHeartbeats 1000000 in
/-- The kernel body on whole staging memrefs, the inputs' at contents `x0`, `x1` and the output's at anything, runs to
    the continuation holding the inputs' as they were and the output's at `out0_2` of them. -/
theorem sound_kernel (c : Dev nD) (E : Set ℕ) (i : grid0.Coords) (arg1 : Memref sig .tc .vmem S8192x256 .f32) (harg1 : arg1.IsWhole) (arg2 : Memref sig .tc .vmem S8192x3 .f32) (harg2 : arg2.IsWhole) (arg3 : Memref sig .tc .vmem S8192x256 .f32) (harg3 : arg3.IsWhole)
    (x0 : Vec F S8192x256 .f32) (x1 : Vec F S8192x3 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__fused_kernel i arg1 harg1 arg2 harg2 arg3 harg3) K := by
  simp only [cc0__fused_kernel_eq_skeleton]; unfold cc0__fused_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the one pipeline on a core: the arrays as the launch finds them; after the body at point `t` each
    input's buffer at its block and the output's at `out0_2` of the input blocks; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks, so the body's triple applies; the invariant and the
    core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the entry function terminates, and every final state
    has every array of the pipeline at what the library computes from the proof data and every other unscoped buffer as
    the launch found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the entry function terminates, nothing faults, and both argument arrays end as they were given. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Hand

end
-- ==== Proof.KIStatsTerm.lean ====
/-
  The array of per-row statistics the kernel's entry function computes on the host before its one launch, as ONE pure
  term of the diagonal vector, at any float instance: c = max(d, 0), b = exp(-c), and the stable difference
  exp(d - c) - exp(-c) chosen by the sign of d through exp(·) - 1, each made a column and the three concatenated.
-/
import proofs.«406681_j1348619731342_3_alg».proof.KernelIdeal

noncomputable section

namespace Cert.KernelIdeal.Hand

open Idealize.ShloMosaic Cert.KernelIdeal

variable {F : FTy → Type} [FloatOps F] [Facts]
open Facts₀ Facts

/-- The zero vector the host compares and maximises against. -/
def zeroVec : FVec F S8192 .f32 := broadcastInDim S8192 ![] bcast_S_S8192 (constant S_ .f32 0x00000000#32)

/-- c = max(d, 0). -/
def cTerm (d : FVec F S8192 .f32) : FVec F S8192 .f32 := maximumf d zeroVec

/-- b = exp(-c). -/
def bTerm (d : FVec F S8192 .f32) : FVec F S8192 .f32 := Host.exp (Host.negf (cTerm d))

/-- Where d ≤ 0, exp(d) - 1; elsewhere -(exp(-d) - 1). -/
def dTerm (d : FVec F S8192 .f32) : FVec F S8192 .f32 :=
  select (cmpf .ole d zeroVec) (Host.expm1 d) (Host.negf (Host.expm1 (Host.negf d)))

/-- A vector as a column. -/
def asCol (v : FVec F S8192 .f32) : FVec F S8192x1 .f32 := broadcastInDim S8192x1 ![0] bcast_S8192_S8192x1_0 v

/-- The three columns side by side. -/
def statsTerm (d : FVec F S8192 .f32) : FVec F S8192x3 .f32 :=
  concatenate S8192x3 1 [⟨S8192x1, asCol (cTerm d)⟩, ⟨S8192x1, asCol (bTerm d)⟩, ⟨S8192x1, asCol (dTerm d)⟩]
    concatenates_S8192x1_S8192x1_S8192x1_S8192x3_d1

end Cert.KernelIdeal.Hand

end
-- ==== Proof.LibNary3.lean ====
/-
  A host operation over a LITERAL family of three references (a concatenation of three operands): its result, with each
  operand's contents at its own reference rather than under a binder over the family's index, so that the operands'
  contents can go on being rewritten one reference at a time. General: any signature, any value type, any function.
-/
import Idealize.ShloMosaic.Lib.StableHlo.Run

namespace Idealize.ShloMosaic.StableHlo

variable {τ : Topo} {sig : RefSig} {Val : EltTy → Type}

/-- The result of an operation over the three references `x`, `a`, `b`, read at its own result buffer `y`: the
    function applied to the family whose entries are the three buffers' contents, in order. -/
theorem nary3_result {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

end Idealize.ShloMosaic.StableHlo
-- ==== Proof.Spec.lean ====
/-
  The mathematics of the certificate, free of any program: for a vector `d` (the diagonal) and a matrix `x`, the
  row-stabilised log-matrix-exponential of `diag d` against `x`, and the closed form that never builds the diagonal matrix.
  Both are written entry by entry over the extended reals, with the operations the idealized programs use
  (`Ideal.exp`, `Ideal.log`, `max`, the fold of `max` from `⊥`), and are proved equal at finite `d` and `x`.
-/
import Idealize.ShloMosaic.PureOps.Ideal
import Idealize.ShloMosaic.Lib.ValueIdx

noncomputable section

open scoped BigOperators

namespace Cert.Spec

open Idealize.ShloMosaic

variable {n m : ℕ}

/-- The maximum of column `j` of `x`, as the fold of `max` from `⊥` over the rows. -/
def colMax (x : Fin n → Fin m → EReal) (j : Fin m) : EReal :=
  (Finset.univ : Finset (Fin n)).fold max ⊥ (fun k => x k j)

/-- `exp (x[k,j] - colMax x j)`: the column-stabilised exponential. -/
def ecol (x : Fin n → Fin m → EReal) (k : Fin n) (j : Fin m) : EReal :=
  Ideal.exp (x k j - colMax x j)

/-- The diagonal matrix of `d`: `d i` on the diagonal, `0` off it. -/
def dmat (d : Fin n → EReal) (i k : Fin n) : EReal := if i = k then d i else 0

/-- The maximum of row `i` of the diagonal matrix, as the fold of `max` from `⊥` over the columns. -/
def rowMax (d : Fin n → EReal) (i : Fin n) : EReal :=
  (Finset.univ : Finset (Fin n)).fold max ⊥ (fun k => dmat d i k)

/-- The reference's entry: `(log (∑ₖ exp (D[i,k] - rowMax i) · ecol k j) + rowMax i) + colMax j`. -/
def refOut (d : Fin n → EReal) (x : Fin n → Fin m → EReal) (i : Fin n) (j : Fin m) : EReal :=
  Ideal.log (∑ k : Fin n, Ideal.exp (dmat d i k - rowMax d i) * ecol x k j) + rowMax d i + colMax x j

/-- `c i = max (d i) 0`. -/
def cvec (d : Fin n → EReal) (i : Fin n) : EReal := max (d i) 0
/-- `b i = exp (-(c i))`. -/
def bvec (d : Fin n → EReal) (i : Fin n) : EReal := Ideal.exp (-(cvec d i))
/-- `exp (d i - c i) - exp (-(c i))`, written by cases on the sign of `d i` through `exp · - 1`. -/
def dvec (d : Fin n → EReal) (i : Fin n) : EReal :=
  if d i ≤ 0 then Ideal.exp (d i) - 1 else -(Ideal.exp (-(d i)) - 1)

/-- The kernel's entry: `(c i + colMax j) + log (max (b i · ∑ₖ ecol k j + dvec i · ecol i j) 0)`. -/
def kerOut (d : Fin n → EReal) (x : Fin n → Fin m → EReal) (i : Fin n) (j : Fin m) : EReal :=
  (cvec d i + colMax x j) + Ideal.log (max (bvec d i * (∑ k : Fin n, ecol x k j) + dvec d i * ecol x i j) 0)

/-- An array of rank 2 read by coordinates. -/
def xOf {a b : ℕ} (v : (⟨2, ![a, b]⟩ : Shape).Idx → EReal) : Fin a → Fin b → EReal := fun k j => v (ValueIdx.ix2 k j)
/-- An array of rank 1 read by its coordinate. -/
def dOf {a : ℕ} (v : (⟨1, ![a]⟩ : Shape).Idx → EReal) : Fin a → EReal := fun i => v (ValueIdx.ix1 i)

/-! ### The coercion of the reals and finite sums, folds of `max` -/

/-- The coercion of the reals into the extended reals commutes with a finite sum. -/
private theorem coe_sum {ι : Type*} (s : Finset ι) (f : ι → ℝ) :
    ((∑ k ∈ s, f k : ℝ) : EReal) = ∑ k ∈ s, (f k : EReal) := by
  classical
  refine Finset.induction_on s ?_ ?_
  · simp
  · intro a s ha ih
    rw [Finset.sum_insert ha, Finset.sum_insert ha, EReal.coe_add, ih]

/-- With at least two rows, row `i` of the diagonal matrix holds `d i` (on the diagonal) and `0` (off it) and nothing
    else, so its maximum is `max (d i) 0`. -/
theorem rowMax_eq (hn : 2 ≤ n) (d : Fin n → EReal) (i : Fin n) : rowMax d i = cvec d i := by
  unfold rowMax cvec
  apply le_antisymm
  · rw [Finset.fold_max_le]
    refine ⟨bot_le, fun k _ => ?_⟩
    unfold dmat
    split_ifs
    · exact le_max_left _ _
    · exact le_max_right _ _
  · haveI : Nontrivial (Fin n) := Fin.nontrivial_iff_two_le.2 hn
    obtain ⟨k, hk⟩ := exists_ne i
    apply max_le
    · exact (Finset.le_fold_max _).2 (Or.inr ⟨i, Finset.mem_univ _, by simp [dmat]⟩)
    · exact (Finset.le_fold_max _).2 (Or.inr ⟨k, Finset.mem_univ _, by simp [dmat, hk.symm]⟩)

/-- The maximum of a nonempty column of reals is a real: it is below `⊤` because every entry is, and above `⊥` because
    the first entry is. -/
theorem colMax_real (hn : 2 ≤ n) (x : Fin n → Fin m → ℝ) (j : Fin m) :
    ∃ M : ℝ, colMax (fun k j => (x k j : EReal)) j = (M : EReal) := by
  have htop : colMax (fun k j => (x k j : EReal)) j ≠ ⊤ := by
    apply ne_of_lt
    unfold colMax
    rw [Finset.fold_max_lt]
    exact ⟨bot_lt_top, fun k _ => EReal.coe_lt_top _⟩
  have hbot : colMax (fun k j => (x k j : EReal)) j ≠ ⊥ := by
    apply ne_of_gt
    unfold colMax
    rw [Finset.lt_fold_max]
    exact Or.inr ⟨⟨0, by omega⟩, Finset.mem_univ _, EReal.bot_lt_coe _⟩
  exact ⟨_, (EReal.coe_toReal htop hbot).symm⟩

/-! ### The identity over the reals -/

/-- At `c = max t 0`, `exp (t - c) - exp (-c)` is `exp t - 1` for `t ≤ 0` and `1 - exp (-t)` for `t > 0`. -/
private theorem dvec_real (t : ℝ) :
    (if t ≤ 0 then Real.exp t - 1 else -(Real.exp (-t) - 1))
      = Real.exp (t - max t 0) - Real.exp (-(max t 0)) := by
  split_ifs with h
  · rw [max_eq_right h]; simp
  · rw [max_eq_left (not_le.1 h).le]; simp

/-- A sum whose weight is `a` at the index `i` and `b` elsewhere: `b` times the whole sum plus `(a - b)` times the
    `i`-th term. -/
private theorem sum_split (i : Fin n) (a b : ℝ) (e : Fin n → ℝ) :
    ∑ k, (if i = k then a else b) * e k = b * ∑ k, e k + (a - b) * e i := by
  have h : ∀ k, (if i = k then a else b) * e k = b * e k + (if i = k then (a - b) * e k else 0) := by
    intro k; split_ifs <;> ring
  rw [Finset.sum_congr rfl (fun k _ => h k), Finset.sum_add_distrib, ← Finset.mul_sum, Finset.sum_ite_eq]
  simp

/-! ### Both entries at real `d` and `x` -/

/-- The kernel's `dvec` at a real `t` is the coercion of `exp (t - c) - exp (-c)`, `c = max t 0`. -/
private theorem dvec_coe (t : ℝ) :
    (if (t : EReal) ≤ 0 then Ideal.exp (t : EReal) - 1 else -(Ideal.exp (-(t : EReal)) - 1))
      = ((Real.exp (t - max t 0) - Real.exp (-(max t 0)) : ℝ) : EReal) := by
  rw [← dvec_real]
  by_cases h : t ≤ 0
  · have h' : (t : EReal) ≤ 0 := by exact_mod_cast h
    rw [if_pos h', if_pos h, Ideal.exp_coe, ← EReal.coe_one, ← EReal.coe_sub]
  · have h' : ¬ (t : EReal) ≤ 0 := by exact_mod_cast h
    rw [if_neg h', if_neg h, ← EReal.coe_neg, Ideal.exp_coe, ← EReal.coe_one, ← EReal.coe_sub, ← EReal.coe_neg]

/-- The closed form is the reference's entry at real `d` and `x`. With `c = max (d i) 0`, `M` the column maximum and
    `e k = exp (x k j - M)`, both logarithms are taken of the same positive real
    `exp (-c) · ∑ₖ e k + (exp (d i - c) - exp (-c)) · e i`. -/
theorem kerOut_eq_refOut_coe (hn : 2 ≤ n) (d : Fin n → ℝ) (x : Fin n → Fin m → ℝ) (i : Fin n) (j : Fin m) :
    kerOut (fun i => (d i : EReal)) (fun k j => (x k j : EReal)) i j
      = refOut (fun i => (d i : EReal)) (fun k j => (x k j : EReal)) i j := by
  obtain ⟨M, hM⟩ := colMax_real hn x j
  obtain ⟨c, hc⟩ : ∃ c : ℝ, c = max (d i) 0 := ⟨_, rfl⟩
  obtain ⟨e, he⟩ : ∃ e : Fin n → ℝ, e = fun k => Real.exp (x k j - M) := ⟨_, rfl⟩
  -- the pieces, each the coercion of a real
  have hcv : cvec (fun i => (d i : EReal)) i = (c : EReal) := by
    unfold cvec
    rw [hc, EReal.coe_strictMono.monotone.map_max]; rfl
  have hrow : rowMax (fun i => (d i : EReal)) i = (c : EReal) := by rw [rowMax_eq hn, hcv]
  have hecol : ∀ k, ecol (fun k j => (x k j : EReal)) k j = (e k : EReal) := by
    intro k
    unfold ecol
    rw [hM, ← EReal.coe_sub, Ideal.exp_coe, he]
  have hb : bvec (fun i => (d i : EReal)) i = (Real.exp (-c) : EReal) := by
    unfold bvec
    rw [hcv, ← EReal.coe_neg, Ideal.exp_coe]
  have hdv : dvec (fun i => (d i : EReal)) i = ((Real.exp (d i - c) - Real.exp (-c) : ℝ) : EReal) := by
    unfold dvec
    rw [hc]
    exact dvec_coe (d i)
  have hterm : ∀ k, Ideal.exp (dmat (fun i => (d i : EReal)) i k - rowMax (fun i => (d i : EReal)) i)
        * ecol (fun k j => (x k j : EReal)) k j
      = (((if i = k then Real.exp (d i - c) else Real.exp (-c)) * e k : ℝ) : EReal) := by
    intro k
    rw [hrow, hecol]
    simp only [dmat]
    split_ifs with h
    · rw [← EReal.coe_sub, Ideal.exp_coe, ← EReal.coe_mul]
    · rw [zero_sub, ← EReal.coe_neg, Ideal.exp_coe, ← EReal.coe_mul]
  -- the reference's sum is positive
  have hepos : ∀ k, 0 < e k := by intro k; rw [he]; exact Real.exp_pos _
  have hpos : 0 < ∑ k, (if i = k then Real.exp (d i - c) else Real.exp (-c)) * e k := by
    haveI : Nonempty (Fin n) := ⟨i⟩
    apply Finset.sum_pos _ Finset.univ_nonempty
    intro k _
    apply mul_pos _ (hepos k)
    split_ifs <;> exact Real.exp_pos _
  have hpos' := hpos
  rw [sum_split] at hpos'
  -- the two sides
  have href : (∑ k : Fin n, Ideal.exp (dmat (fun i => (d i : EReal)) i k - rowMax (fun i => (d i : EReal)) i)
        * ecol (fun k j => (x k j : EReal)) k j)
      = ((Real.exp (-c) * ∑ k, e k + (Real.exp (d i - c) - Real.exp (-c)) * e i : ℝ) : EReal) := by
    rw [Finset.sum_congr rfl (fun k _ => hterm k), ← coe_sum, sum_split]
  have hker : bvec (fun i => (d i : EReal)) i * (∑ k : Fin n, ecol (fun k j => (x k j : EReal)) k j)
        + dvec (fun i => (d i : EReal)) i * ecol (fun k j => (x k j : EReal)) i j
      = ((Real.exp (-c) * ∑ k, e k + (Real.exp (d i - c) - Real.exp (-c)) * e i : ℝ) : EReal) := by
    rw [hb, hdv, Finset.sum_congr rfl (fun k _ => hecol k), hecol, ← coe_sum, ← EReal.coe_mul, ← EReal.coe_mul,
      ← EReal.coe_add]
  unfold kerOut refOut
  rw [href, hker, hrow, hcv, max_eq_left (EReal.coe_nonneg.2 hpos'.le), add_comm, add_assoc]

/-- At finite `d` and `x` (and at least two rows, so that every row of the diagonal matrix has an off-diagonal zero)
    the closed form is the reference's entry. -/
theorem kerOut_eq_refOut (hn : 2 ≤ n) (d : Fin n → EReal) (x : Fin n → Fin m → EReal)
    (hd : ∀ i, d i ≠ ⊤ ∧ d i ≠ ⊥) (hx : ∀ k j, x k j ≠ ⊤ ∧ x k j ≠ ⊥) (i : Fin n) (j : Fin m) :
    kerOut d x i j = refOut d x i j := by
  lift d to Fin n → ℝ using hd
  lift x to Fin n → Fin m → ℝ using hx
  exact kerOut_eq_refOut_coe hn d x i j

end Cert.Spec

end
-- ==== Proof.KIStats.lean ====
/-
  The statistics array as the launch finds it is the host's term of the diagonal argument, and, at the ideal instance,
  its three columns read at a row are the specification's c, b and the stable difference.
-/
import proofs.«406681_j1348619731342_3_alg».proof.Proof.KIEntry
import proofs.«406681_j1348619731342_3_alg».proof.Proof.KIStatsTerm
import proofs.«406681_j1348619731342_3_alg».proof.Proof.LibNary3
import proofs.«406681_j1348619731342_3_alg».proof.Proof.Spec
import Idealize.ShloMosaic.Lib.ValueIdx
import Idealize.ShloMosaic.Lib.Pipeline.Value
import Idealize.ShloMosaic.PureOps.Ideal.Laws

noncomputable section

namespace Cert.KernelIdeal.Hand

open Idealize.ShloMosaic Idealize.ShloMosaic.TcCoe Idealize.ShloMosaic.ValueIdx Idealize.SL.Sem
open Cert.KernelIdeal Cert.KernelIdeal.Gen

section AnyInstance
variable {F : FTy → Type} [FloatOps F]

open Idealize.ShloMosaic.StableHlo in
/-- When the launch is entered, the statistics buffer holds the host's term of the diagonal argument. The fold of the
    host operations is read at the statistics buffer: the concatenation's result is its function of its three operands'
    contents, each operand's contents is its own operation's function of its operands' contents, and so on back to the
    diagonal argument, which no operation writes; every other operation leaves a buffer not its own as it was. -/
theorem V_stats (m : (ℓ : Loc nD τ sig) → Buf (Elt F) ℓ) (c : Dev nD) :
    V m c main_v14 = statsTerm (m ((c : Thread nD τ).loc main_arg1)) := by
  show StableHlo.after (List.flatten [hostOps0, hostOps0_1, hostOps0_2]) (fun b => m (c, b)) (Proc.devRef .tc main_v14) = _
  simp only [hostOps0, hostOps0_1, hostOps0_2, List.flatten_cons, List.flatten_nil, List.append_nil, List.cons_append, List.nil_append]
  simp only [StableHlo.after_cons, StableHlo.after_nil]
  rw [StableHlo.nary3_result]
  repeat (first
    | rw [nullary_result] | rw [unary_result] | rw [binary_result] | rw [ternary_result]
    | (rw [nullary_result_ne]; rotate_left; decide)
    | (rw [unary_result_ne]; rotate_left; decide)
    | (rw [binary_result_ne]; rotate_left; decide)
    | (rw [ternary_result_ne]; rotate_left; decide)
    | (rw [nary_result_ne]; rotate_left; decide))
  unfold statsTerm asCol cTerm bTerm dTerm zeroVec
  rfl

/-- A vector made a column, read at row i, is the vector at i: the broadcast along the rows reads the operand at the
    row coordinate. -/
theorem asCol_apply (v : FVec F S8192 .f32) (i : Fin 8192) : asCol v (ix2 i (0 : Fin 1)) = v (ix1 i) := by
  unfold asCol
  refine broadcastInDim_apply _ _ v (ix2 i (0 : Fin 1)) (ix1 i) ?_
  intro a
  match a with
  | ⟨0, _⟩ => rfl

/-- Column 0 of the three columns side by side is the first column: the axis coordinate 0 falls in the first piece
    (no extent before it), at its own coordinate 0. -/
theorem statsTerm_col0 (d : FVec F S8192 .f32) (i : Fin 8192) :
    statsTerm d (ix2 i (0 : Fin 3)) = cTerm d (ix1 i) := by
  refine Eq.trans ?_ (asCol_apply (cTerm d) i)
  unfold statsTerm
  refine concatenate_apply_piece (1 : Fin 2) _ _ (ix2 i (0 : Fin 3)) 0 ?_ S8192x1 _ ?_ rfl 0 ?_
    (ix2 i (0 : Fin 1)) ?_ ?_
  · exact (by decide : 0 < 3)
  · rfl
  · rfl
  · intro b hb
    match b with
    | ⟨0, _⟩ => rfl
    | ⟨1, _⟩ => exact absurd rfl hb
  · rfl

/-- Column 1 is the second column: one extent, 1, lies before it. -/
theorem statsTerm_col1 (d : FVec F S8192 .f32) (i : Fin 8192) :
    statsTerm d (ix2 i (1 : Fin 3)) = bTerm d (ix1 i) := by
  refine Eq.trans ?_ (asCol_apply (bTerm d) i)
  unfold statsTerm
  refine concatenate_apply_piece (1 : Fin 2) _ _ (ix2 i (1 : Fin 3)) 1 ?_ S8192x1 _ ?_ rfl 1 ?_
    (ix2 i (0 : Fin 1)) ?_ ?_
  · exact (by decide : 1 < 3)
  · rfl
  · rfl
  · intro b hb
    match b with
    | ⟨0, _⟩ => rfl
    | ⟨1, _⟩ => exact absurd rfl hb
  · rfl

/-- Column 2 is the third column: two extents, 1 + 1, lie before it. -/
theorem statsTerm_col2 (d : FVec F S8192 .f32) (i : Fin 8192) :
    statsTerm d (ix2 i (2 : Fin 3)) = dTerm d (ix1 i) := by
  refine Eq.trans ?_ (asCol_apply (dTerm d) i)
  unfold statsTerm
  refine concatenate_apply_piece (1 : Fin 2) _ _ (ix2 i (2 : Fin 3)) 2 ?_ S8192x1 _ ?_ rfl 2 ?_
    (ix2 i (0 : Fin 1)) ?_ ?_
  · exact (by decide : 2 < 3)
  · rfl
  · rfl
  · intro b hb
    match b with
    | ⟨0, _⟩ => rfl
    | ⟨1, _⟩ => exact absurd rfl hb
  · rfl

end AnyInstance

/-- The zero vector reads 0 at every row: the all-zero pattern is the real 0. -/
theorem zeroVec_apply (i : Fin 8192) : zeroVec (F := Ideal) (ix1 i) = (0 : EReal) := by
  show Ideal.ofBits .f32 0x00000000#32 = 0
  exact Ideal.ofBits_zero_f32

/-- c at row i is max (d i) 0. -/
theorem cTerm_apply (d : FVec Ideal S8192 .f32) (i : Fin 8192) :
    cTerm (F := Ideal) d (ix1 i) = max (d (ix1 i)) 0 := by
  unfold cTerm
  rw [maximumf_apply, zeroVec_apply]

/-- Column 0 at row i is c i = max (d i) 0. -/
theorem statsTerm_c (d : FVec Ideal S8192 .f32) (i : Fin 8192) :
    statsTerm (F := Ideal) d (ix2 i (0 : Fin 3)) = Cert.Spec.cvec (Cert.Spec.dOf d) i := by
  rw [statsTerm_col0, cTerm_apply]
  rfl

/-- Column 1 at row i is b i = exp (-(c i)). -/
theorem statsTerm_b (d : FVec Ideal S8192 .f32) (i : Fin 8192) :
    statsTerm (F := Ideal) d (ix2 i (1 : Fin 3)) = Cert.Spec.bvec (Cert.Spec.dOf d) i := by
  rw [statsTerm_col1]
  show Ideal.exp (-(cTerm (F := Ideal) d (ix1 i))) = _
  rw [cTerm_apply]
  rfl

/-- Column 2 at row i is the stable difference. -/
theorem statsTerm_d (d : FVec Ideal S8192 .f32) (i : Fin 8192) :
    statsTerm (F := Ideal) d (ix2 i (2 : Fin 3)) = Cert.Spec.dvec (Cert.Spec.dOf d) i := by
  rw [statsTerm_col2]
  unfold dTerm
  rw [select_apply, cmpf_apply, zeroVec_apply, Ideal.cmpf_def]
  show Scalar.select (Ideal.cmp .ole (d (ix1 i)) 0) (Ideal.exp (d (ix1 i)) - 1) (-(Ideal.exp (-(d (ix1 i))) - 1)) = _
  unfold Cert.Spec.dvec Cert.Spec.dOf
  by_cases h : d (ix1 i) ≤ 0
  · rw [if_pos h]
    have hb : Ideal.cmp .ole (d (ix1 i)) 0 = 1#1 := by
      unfold Ideal.cmp; simp [h]
    rw [hb, select_one]
  · rw [if_neg h]
    have hb : Ideal.cmp .ole (d (ix1 i)) 0 = 0#1 := by
      unfold Ideal.cmp; simp [h]
    rw [hb, select_zero]

end Cert.KernelIdeal.Hand
end
-- ==== Proof.KIPay.lean ====
/-
  The kernel body's stored value read at an index, at the ideal instance: entry (p, q) of what one grid point stores, as
  a function of the block of the matrix it loaded and the three statistics columns it loaded.
-/
import proofs.«406681_j1348619731342_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.HandPay

open Idealize.ShloMosaic Idealize.ShloMosaic.ValueIdx
open Cert.KernelIdeal Cert.KernelIdeal.Gen

/-- The maximum of column q of a block, as the fold of max from ⊥ over its rows. -/
def blkColMax (x0 : Vec Ideal S8192x256 .f32) (q : Fin 256) : EReal :=
  (Finset.univ : Finset (Fin 8192)).fold max ⊥ (fun k => x0 (ix2 k q))

/-! ## Layout operations of the block's shapes read at an index -/

section Layout
variable {α : Type}

/-- A column of 8192 entries broadcast over 256 columns reads, at (p, q), the column's entry p. -/
theorem bcastCol_apply (v : S8192x1.Idx → α) (h : S8192x1.Broadcasts S8192x256) (p : Fin 8192) (q : Fin 256) :
    broadcastTo S8192x256 v h (ix2 p q) = v (ix2 p (0 : Fin 1)) := by
  refine broadcastTo_apply v h (ix2 p q) (ix2 p (0 : Fin 1)) fun ax => ?_
  match ax with
  | ⟨0, _⟩ => rfl
  | ⟨1, _⟩ => rfl

/-- A vector of 256 entries cast to one row and broadcast over 8192 rows reads, at (p, q), its entry q. -/
theorem bcastRow_apply (w : S256.Idx → α) (h1 : S256.ShapeCasts S1x256) (h2 : S1x256.Broadcasts S8192x256)
    (p : Fin 8192) (q : Fin 256) :
    broadcastTo S8192x256 (shapeCast S1x256 w h1) h2 (ix2 p q) = w (ix1 q) :=
  (broadcastTo_1b_ab_apply (shapeCast S1x256 w h1) h2 p q).trans (shapeCast_a_1a_apply w h1 0 q)

end Layout

/-! ## The exponential and the logarithm of a vector read at an index -/

section Pointwise
variable {s : Shape} {φ : FTy}

/-- The exponential of a vector at an index is the exponential of the element. -/
theorem exp_apply (a : FVec Ideal s φ) (i : s.Idx) : exp a i = Ideal.exp (a i) := rfl
/-- The logarithm of a vector at an index is the logarithm of the element. -/
theorem log_apply (a : FVec Ideal s φ) (i : s.Idx) : log a i = Ideal.log (a i) := rfl

end Pointwise

/-! ## The two reductions over the rows read at a column -/

section Reductions

/-- The reduced index q with row k put back is (k, q). -/
theorem lift_rows (h : S8192x256.Reduces [0] S256) (q : Fin 256) (k : Fin (S8192x256.size 0)) :
    h.lift (ix1 q) k = ix2 (⟨k.val, k.isLt⟩ : Fin 8192) q := by
  funext c; apply Fin.ext
  fin_cases c <;> rfl

/-- The accumulator word of a maximum reduction denotes −∞. -/
theorem ofBits_negInf : FloatOps.ofBits (F := Ideal) .f32 0xFF800000#32 = (⊥ : EReal) := by
  simp [Ideal.ofBits, Ideal.ieee]

/-- The maximum reduction over the rows, at column q, is the column's maximum: the fold of max from −∞ over the rows. -/
theorem colMax_apply (x0 : FVec Ideal S8192x256 .f32) (h : S8192x256.Reduces [0] S256) (hφ : FKind.Formats .f32)
    (hacc : (0xFF800000#32 : BitVec 32) = FKind.maximumf.neutral .f32 hφ) (q : Fin 256) :
    multiReduction (F := Ideal) .maximumf [0] S256 x0 0xFF800000#32 h hφ hacc (ix1 q) = blkColMax x0 q := by
  refine (Ideal.multiReduction_maximumf_single x0 _ h hφ hacc (ix1 q)).trans ?_
  have hf : (x0 ∘ h.lift (ix1 q)) = fun k : Fin 8192 => x0 (ix2 k q) :=
    funext fun k => congrArg x0 (lift_rows h q k)
  unfold blkColMax
  rw [ofBits_negInf]
  exact congrArg (fun f => Finset.fold max (⊥ : EReal) f (Finset.univ : Finset (Fin 8192))) hf

/-- The sum reduction over the rows, at column q, is the sum of the column. -/
theorem colSum_apply (src : FVec Ideal S8192x256 .f32) (h : S8192x256.Reduces [0] S256) (hφ : FKind.Formats .f32)
    (hacc : (0x00000000#32 : BitVec 32) = FKind.add.neutral .f32 hφ) (q : Fin 256) :
    multiReduction (F := Ideal) .add [0] S256 src 0x00000000#32 h hφ hacc (ix1 q) = ∑ k : Fin 8192, src (ix2 k q) := by
  refine (Ideal.multiReduction_add_single src _ h hφ hacc (ix1 q)).trans ?_
  show ∑ k : Fin 8192, src (h.lift (ix1 q) k) = ∑ k : Fin 8192, src (ix2 k q)
  exact Finset.sum_congr rfl fun k _ => congrArg src (lift_rows h q k)

end Reductions

/-! ## The stored value at an index -/

/-- Entry (p, q) of the stored value. -/
theorem pay_apply (x0 : Vec Ideal S8192x256 .f32) (v1 v3 v5 : Vec Ideal S8192x1 .f32) (p : Fin 8192) (q : Fin 256) :
    k0_pay1 (F := Ideal) x0 v1 v3 v5 (ix2 p q)
      = (v1 (ix2 p (0 : Fin 1)) + blkColMax x0 q)
        + Ideal.log (max (v3 (ix2 p (0 : Fin 1)) * (∑ k : Fin 8192, Ideal.exp (x0 (ix2 k q) - blkColMax x0 q))
                          + v5 (ix2 p (0 : Fin 1)) * Ideal.exp (x0 (ix2 p q) - blkColMax x0 q)) 0) := by
  unfold k0_pay1
  -- the pointwise operations, the casts to the same shape and the broadcasts, read at (p, q)
  simp only [addf_apply, mulf_apply, subf_apply, maximumf_apply, broadcast_apply, exp_apply, log_apply,
    shapeCast_self, bcastCol_apply, bcastRow_apply]
  -- the sum over the rows at column q, and its summand read at (k, q)
  rw [colSum_apply _ reduces_S8192x256_S256 (.inl rfl) rfl q]
  simp only [subf_apply, exp_apply, bcastRow_apply]
  -- the maximum over the rows at column q; the zero word denotes 0
  rw [colMax_apply x0 reduces_S8192x256_S256 (.inl rfl) rfl q, Ideal.ofBits_def, Ideal.ofBits_zero_f32]

end Cert.KernelIdeal.HandPay

end
-- ==== Proof.KIValue.lean ====
/-
  The idealized kernel program's result array after its run, at the ideal instance, as ONE function of the two argument
  arrays: grid point t writes back columns 256·t … 256·t + 255 of the specification's closed form, the four blocks tile
  the array, so the array ends holding the closed form everywhere.
-/
import proofs.«406681_j1348619731342_3_alg».proof.Proof.KIFrame
import proofs.«406681_j1348619731342_3_alg».proof.Proof.KIStats
import proofs.«406681_j1348619731342_3_alg».proof.Proof.KIPay
import proofs.«406681_j1348619731342_3_alg».proof.Proof.Spec
import Idealize.ShloMosaic.Lib.Pipeline.Value
import Idealize.ShloMosaic.Lib.ValueIdx

noncomputable section

open scoped BigOperators

namespace Cert.KernelIdeal.HandValue

open Cert.KernelIdeal Cert.KernelIdeal.Gen Cert.KernelIdeal.Hand Cert.KernelIdeal.HandPay
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The result array as one function of the arguments: the closed form at each index's two coordinates. -/
def Gk (a0 : S8192x1024.Idx → EReal) (a1 : S8192.Idx → EReal) : S8192x1024.Idx → EReal :=
  fun idx => Cert.Spec.kerOut (Cert.Spec.dOf a1) (Cert.Spec.xOf a0) ⟨(idx 0).val, idx2_lt0 idx⟩ ⟨(idx 1).val, idx2_lt1 idx⟩

/-- The printed index maps over the grid: the matrix and the result move along the columns with the point; the
    statistics window stays. -/
theorem idx_facts : ∀ t : Fin cfg0.N, win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = t.val :=
  (by decide +kernel : ∀ t : Fin grid0.N, _)

/-- One entry of what a grid point stores, from a block of the matrix that holds columns 256·tv … of the array and a
    statistics block that holds the host's term: the closed form at row p, column 256·tv + q. -/
theorem core (xb : Vec Ideal S8192x256 .f32) (sb : Vec Ideal S8192x3 .f32) (a0 : S8192x1024.Idx → EReal) (a1 : S8192.Idx → EReal)
    (tv : ℕ) (htv : tv < 4)
    (hx : ∀ (k : Fin 8192) (q : Fin 256), xb (ix2 k q) = a0 (ix2 k (⟨tv * 256 + q.val, by omega⟩ : Fin 1024)))
    (hs : sb = statsTerm (F := Ideal) a1) (p : Fin 8192) (q : Fin 256) :
    k0_pay1 (F := Ideal) xb (View.ld sb r0_1) (View.ld sb r0_2) (View.ld sb r0_3) (ix2 p q)
      = Gk a0 a1 (ix2 p (⟨tv * 256 + q.val, by omega⟩ : Fin 1024)) := by
  subst hs
  -- the three load rectangles of the statistics block send row p of a column to (p, 0), (p, 1), (p, 2)
  have e1 : r0_1.emb (ix2 p (0 : Fin 1)) = ix2 p (0 : Fin 3) := by
    funext a; apply Fin.ext
    match a with
    | ⟨0, _⟩ => show 0 + 1 * p.val = p.val; omega
    | ⟨1, _⟩ => show 0 + 1 * 0 = 0; omega
  have e2 : r0_2.emb (ix2 p (0 : Fin 1)) = ix2 p (1 : Fin 3) := by
    funext a; apply Fin.ext
    match a with
    | ⟨0, _⟩ => show 0 + 1 * p.val = p.val; omega
    | ⟨1, _⟩ => show 1 + 1 * 0 = 1; omega
  have e3 : r0_3.emb (ix2 p (0 : Fin 1)) = ix2 p (2 : Fin 3) := by
    funext a; apply Fin.ext
    match a with
    | ⟨0, _⟩ => show 0 + 1 * p.val = p.val; omega
    | ⟨1, _⟩ => show 2 + 1 * 0 = 2; omega
  have h1 : (View.ld (statsTerm (F := Ideal) a1) r0_1 : Vec Ideal S8192x1 .f32) (ix2 p (0 : Fin 1)) = Cert.Spec.cvec (Cert.Spec.dOf a1) p := by
    show statsTerm (F := Ideal) a1 (r0_1.emb (ix2 p (0 : Fin 1))) = _
    rw [e1, statsTerm_c]
  have h3 : (View.ld (statsTerm (F := Ideal) a1) r0_2 : Vec Ideal S8192x1 .f32) (ix2 p (0 : Fin 1)) = Cert.Spec.bvec (Cert.Spec.dOf a1) p := by
    show statsTerm (F := Ideal) a1 (r0_2.emb (ix2 p (0 : Fin 1))) = _
    rw [e2, statsTerm_b]
  have h5 : (View.ld (statsTerm (F := Ideal) a1) r0_3 : Vec Ideal S8192x1 .f32) (ix2 p (0 : Fin 1)) = Cert.Spec.dvec (Cert.Spec.dOf a1) p := by
    show statsTerm (F := Ideal) a1 (r0_3.emb (ix2 p (0 : Fin 1))) = _
    rw [e3, statsTerm_d]
  -- the block's column maximum is the array's, at the column the block holds
  have hcm : blkColMax xb q = Cert.Spec.colMax (Cert.Spec.xOf a0) (⟨tv * 256 + q.val, by omega⟩ : Fin 1024) := by
    unfold blkColMax Cert.Spec.colMax Cert.Spec.xOf
    exact congrArg (fun f => Finset.fold max ⊥ f (Finset.univ : Finset (Fin 8192))) (funext fun k => hx k q)
  rw [pay_apply, h1, h3, h5, hcm]
  show _ = Cert.Spec.kerOut (Cert.Spec.dOf a1) (Cert.Spec.xOf a0) p (⟨tv * 256 + q.val, by omega⟩ : Fin 1024)
  unfold Cert.Spec.kerOut Cert.Spec.ecol
  simp only [hx]
  rfl

/-- What grid point t writes back is block t of the closed form of the two arguments. -/
theorem flushed_eq (c : Dev nD) (t : Fin cfg0.N) :
    (dats m 0 c).flushed 2 t
      = ((cfg0.win 2).blk t).view.read (Elt Ideal) (Gk (m ((c : Thread nD τ).loc main_arg0)) (m ((c : Thread nD τ).loc main_arg1))) := by
  show (cfg0.win 2).cut (grid0.coords t) ((dats m 0 c).after 2 t) = _
  rw [after0_2]
  unfold out0_2
  rw [View.canon_unit_zero hz]
  simp only [View.ld_unit_zero (S := S8192x256) hz]
  obtain ⟨e00, e01, e10, e11, e20, e21⟩ := idx_facts t
  have ht : t.val < 4 := by have h : t.val < grid0.N := t.isLt; rw [N_0] at h; exact h
  funext j
  obtain ⟨p, q, rfl⟩ : ∃ (p : Fin 8192) (q : Fin 256), j = ix2 p q := ⟨j 0, j 1, eq_ix2 j⟩
  show k0_pay1 (F := Ideal) (iblk m c 0 t) (View.ld (iblk m c 1 t) r0_1) (View.ld (iblk m c 1 t) r0_2) (View.ld (iblk m c 1 t) r0_3) (ix2 p q)
    = Gk (m ((c : Thread nD τ).loc main_arg0)) (m ((c : Thread nD τ).loc main_arg1)) (((cfg0.win 2).blk t).view.emb (ix2 p q))
  have hemb : ((cfg0.win 2).blk t).view.emb (ix2 p q) = ix2 p (⟨t.val * 256 + q.val, by omega⟩ : Fin 1024) := by
    funext a; apply Fin.ext
    match a with
    | ⟨0, _⟩ => show win0_2.index t (0 : Fin 2) * 8192 + 1 * p.val = p.val; omega
    | ⟨1, _⟩ => show win0_2.index t (1 : Fin 2) * 256 + 1 * q.val = t.val * 256 + q.val; omega
  rw [hemb]
  refine core (iblk m c 0 t) (iblk m c 1 t) _ _ t.val ht ?_ ?_ p q
  · intro k q'
    show V m c main_arg0 (((cfg0.win 0).blk t).view.emb (ix2 k q')) = _
    rw [V_main_arg0]
    refine congrArg (m ((c : Thread nD τ).loc main_arg0)) ?_
    funext a; apply Fin.ext
    match a with
    | ⟨0, _⟩ => show win0_0.index t (0 : Fin 2) * 8192 + 1 * k.val = k.val; omega
    | ⟨1, _⟩ => show win0_0.index t (1 : Fin 2) * 256 + 1 * q'.val = t.val * 256 + q'.val; omega
  · funext y
    show V m c main_v14 (((cfg0.win 1).blk t).view.emb y) = statsTerm (F := Ideal) (m ((c : Thread nD τ).loc main_arg1)) y
    rw [V_stats]
    refine congrArg (statsTerm (F := Ideal) (m ((c : Thread nD τ).loc main_arg1))) ?_
    funext a; apply Fin.ext
    match a with
    | ⟨0, _⟩ => show win0_1.index t (0 : Fin 2) * 8192 + 1 * (y 0).val = (y 0).val; omega
    | ⟨1, _⟩ => show win0_1.index t (1 : Fin 2) * 3 + 1 * (y 1).val = (y 1).val; omega

/-- An index of the array is in point t's block iff each coordinate is in the block's range on its axis. -/
theorem mem_blk (t : Fin cfg0.N) (i : S8192x1024.Idx) :
    i ∈ ((cfg0.win 2).blk t).view.set ↔ ∀ a : Fin 2, win0_2.index t a * S8192x256.size a ≤ (i a).val ∧ (i a).val < win0_2.index t a * S8192x256.size a + S8192x256.size a := by
  show i ∈ ((View.whole main_v15).slice (win0_2.rect t)).set ↔ _
  rw [View.set_slice_whole, Rect.mem_set_unit]
  exact Iff.rfl

/-- Every column block is some point's. -/
theorem idx_onto : ∀ (q1 : Fin 4), ∃ t : Fin cfg0.N, win0_2.index t = ![0, q1.val] :=
  (by decide +kernel : ∀ (q1 : Fin 4), ∃ t : Fin grid0.N, win0_2.index t = ![0, q1.val])

/-- The four blocks cover the array: column j lies in the block of point j / 256. -/
theorem cover (i : S8192x1024.Idx) : ∃ t : Fin cfg0.N, (cfg0.win 2).flush t = true ∧ i ∈ ((cfg0.win 2).blk t).view.set := by
  have hi0 : (i 0).val < 8192 := (i 0).isLt
  have hi1 : (i 1).val < 1024 := (i 1).isLt
  obtain ⟨t, ht⟩ := idx_onto ⟨(i 1).val / 256, by omega⟩
  have q0 : win0_2.index t (0 : Fin 2) = 0 := congrFun ht 0
  have q1 : win0_2.index t (1 : Fin 2) = (i 1).val / 256 := congrFun ht 1
  refine ⟨t, flush0_2 t, ?_⟩
  rw [mem_blk]
  intro a
  match a with
  | ⟨0, _⟩ => show win0_2.index t (0 : Fin 2) * 8192 ≤ (i 0).val ∧ (i 0).val < win0_2.index t (0 : Fin 2) * 8192 + 8192; omega
  | ⟨1, _⟩ => show win0_2.index t (1 : Fin 2) * 256 ≤ (i 1).val ∧ (i 1).val < win0_2.index t (1 : Fin 2) * 256 + 256; omega

/-- The result array after the run is the closed form of the two arguments. -/
theorem final (c : Dev nD) :
    (dats m 0 c).arrAt 2 cfg0.N = Gk (m ((c : Thread nD τ).loc main_arg0)) (m ((c : Thread nD τ).loc main_arg1)) :=
  (dats m 0 c).arrAt_eq_of_cover 2 (Gk (m ((c : Thread nD τ).loc main_arg0)) (m ((c : Thread nD τ).loc main_arg1)))
    (fun t _ => flushed_eq m c t) cover

/-- The run re-posted: the result array at the closed form of the arguments, the arguments unchanged. -/
theorem run : θ_run defs (onTc (τ := τ) (main (F := Ideal))) ⟨m, fun _ => 0, ρ⟩ fun r => ∀ c : Dev nD,
      r.2.mem ((c : Thread nD τ).loc main_v15) = Gk (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 2).trans (final m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c)⟩)
    (run_main m ρ)

end Cert.KernelIdeal.HandValue

end
-- ==== Proof.RefTerm.lean ====
/-
  The reference program's result as ONE pure term of its two argument arrays, at any float instance: the operations of
  the reference's entry function composed in program order — the diagonal matrix of the vector, its row maxima, the
  matrix's column maxima, the two stabilised exponentials, their product, the logarithm, and the two maxima added back.
  Stated in stages so that each stage can be read at an index on its own.
-/
import proofs.«406681_j1348619731342_3_alg».proof.ReferenceIdeal

noncomputable section

namespace Cert.ReferenceIdeal.Hand

open Idealize.ShloMosaic Cert.ReferenceIdeal

variable {F : FTy → Type} [FloatOps F] [Facts]
open Facts₀ Facts

/-- The diagonal matrix: entry (i, k) selects the vector's entry i where row index plus zero equals the column index,
    and the zero constant elsewhere. -/
def diagTerm (d : FVec F S8192 .f32) : FVec F S8192x8192 .f32 :=
  select
    (cmpi .eq
      (addi (iotaInDim S8192x8192 32 0) (broadcastInDim S8192x8192 ![] bcast_S_S8192x8192 (constantI S_ 32 0#32)))
      (iotaInDim S8192x8192 32 1))
    (broadcastInDim S8192x8192 ![0, 1] bcast_S8192x1_S8192x8192_0_1
      (broadcastInDim S8192x1 ![0] bcast_S8192_S8192x1_0
        (pad S8192 ![0] ![0] ![0] d (constant S_ .f32 0x00000000#32) pads_S8192_S8192_000 h_S_)))
    (broadcastInDim S8192x8192 ![] bcast_S_S8192x8192 (constant S_ .f32 0x00000000#32))

/-- Row maxima of a square matrix, from minus infinity. -/
def rowMaxTerm (D : FVec F S8192x8192 .f32) : FVec F S8192 .f32 :=
  Host.reduce FloatOps.maximumf D (constant S_ .f32 0xFF800000#32) reducesTo_S8192x8192_S8192_d1 h_S_

/-- Column maxima of the input matrix, from minus infinity. -/
def colMaxTerm (x : FVec F S8192x1024 .f32) : FVec F S1024 .f32 :=
  Host.reduce FloatOps.maximumf x (constant S_ .f32 0xFF800000#32) reducesTo_S8192x1024_S1024_d0 h_S_

/-- The row maxima as a column. -/
def mACol (d : FVec F S8192 .f32) : FVec F S8192x1 .f32 :=
  broadcastInDim S8192x1 ![0] bcast_S8192_S8192x1_0 (rowMaxTerm (diagTerm d))

/-- The column maxima as a row. -/
def mBRow (x : FVec F S8192x1024 .f32) : FVec F S1x1024 .f32 :=
  broadcastInDim S1x1024 ![1] bcast_S1024_S1x1024_1 (colMaxTerm x)

/-- The left factor: the exponential of the diagonal matrix less its row maxima. -/
def lhsTerm (d : FVec F S8192 .f32) : FVec F S8192x8192 .f32 :=
  Host.exp (subf (diagTerm d) (broadcastInDim S8192x8192 ![0, 1] bcast_S8192x1_S8192x8192_0_1 (mACol d)))

/-- The right factor: the exponential of the input matrix less its column maxima. -/
def rhsTerm (x : FVec F S8192x1024 .f32) : FVec F S8192x1024 .f32 :=
  Host.exp (subf x (broadcastInDim S8192x1024 ![0, 1] bcast_S1x1024_S8192x1024_0_1 (mBRow x)))

/-- The reference's result: the logarithm of the product of the two factors, plus the row maxima, plus the column maxima. -/
def refTerm (x : FVec F S8192x1024 .f32) (d : FVec F S8192 .f32) : FVec F S8192x1024 .f32 :=
  addf
    (addf
      (Host.log (Host.dotGeneral dot_S8192x8192_S8192x1024_S8192x1024_1_0_0_1_n_n none (lhsTerm d) (rhsTerm x)))
      (broadcastInDim S8192x1024 ![0, 1] bcast_S8192x1_S8192x1024_0_1 (mACol d)))
    (broadcastInDim S8192x1024 ![0, 1] bcast_S1x1024_S8192x1024_0_1 (mBRow x))

end Cert.ReferenceIdeal.Hand

end
-- ==== Proof.RefRun.lean ====
/-
  The reference program's run: its entry function is a straight line of host operations (the function that builds the diagonal matrix and
  the select function it calls are inlined at their call sites), so every weakly fair execution terminates with the result
  buffer at the operations' composed term of the two argument arrays, and the arguments unchanged.
-/
import proofs.«406681_j1348619731342_3_alg».proof.Proof.Gen.ReferenceIdeal
import proofs.«406681_j1348619731342_3_alg».proof.Proof.RefTerm
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The entry function's thirty-one operations in order, its calls unfolded: the diagonal-matrix function's ten (the zero
    constant, the padding of the vector by nothing, the two index grids, the integer zero and its broadcast, their sum, the
    comparison with the column grid, the vector as a column, the second zero constant), the three of the selection function it calls
    (the column and the zero each broadcast to the square, the selection), then the entry function's own eighteen: the two
    maxima from minus infinity with their broadcasts, the two stabilised exponentials, their product, its logarithm, and
    the two maxima added back. -/
abbrev ops : List (HloOp τ sig (Elt F)) :=
  [ TRef.nullary main_call0.cst (constant S_ .f32 0x00000000#32),
    TRef.binary (.of main_arg1) main_call0.cst main_call0.v0 (fun x v => pad S8192 ![0] ![0] ![0] x v pads_S8192_S8192_000 h_S_),
    TRef.nullary main_call0.v1 (iotaInDim S8192x8192 32 0),
    TRef.nullary main_call0.v2 (iotaInDim S8192x8192 32 1),
    TRef.nullary main_call0.c (constantI S_ 32 0#32),
    TRef.unary main_call0.c main_call0.v3 (broadcastInDim S8192x8192 ![] bcast_S_S8192x8192),
    TRef.binary main_call0.v1 main_call0.v3 main_call0.v4 addi,
    TRef.binary main_call0.v4 main_call0.v2 main_call0.v5 (cmpi .eq),
    TRef.unary main_call0.v0 main_call0.v6 (broadcastInDim S8192x1 ![0] bcast_S8192_S8192x1_0),
    TRef.nullary main_call0.cst_0 (constant S_ .f32 0x00000000#32),
    TRef.unary main_call0.v6 main_call0.call0.v0 (broadcastInDim S8192x8192 ![0, 1] bcast_S8192x1_S8192x8192_0_1),
    TRef.unary main_call0.cst_0 main_call0.call0.v1 (broadcastInDim S8192x8192 ![] bcast_S_S8192x8192),
    TRef.ternary main_call0.v5 main_call0.call0.v0 main_call0.call0.v1 main_call0.call0.v2 select,
    nullary main_cst (constant S_ .f32 0xFF800000#32),
    binary main_v0 main_cst main_v1 ((fun x v => Host.reduce FloatOps.maximumf x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    unary main_v1 main_v2 (broadcastInDim S8192x1 ![0] bcast_S8192_S8192x1_0 : (⟨S8192, .f32⟩ : BufTy).Contents (Elt F) → (⟨S8192x1, .f32⟩ : BufTy).Contents (Elt F)),
    nullary main_cst_0 (constant S_ .f32 0xFF800000#32),
    binary main_arg0 main_cst_0 main_v3 ((fun x v => Host.reduce FloatOps.maximumf x v reducesTo_S8192x1024_S1024_d0 h_S_) : (⟨S8192x1024, .f32⟩ : BufTy).Contents (Elt F) → (⟨S_, .f32⟩ : BufTy).Contents (Elt F) → (⟨S1024, .f32⟩ : BufTy).Contents (Elt F)),
    unary main_v3 main_v4 (broadcastInDim S1x1024 ![1] bcast_S1024_S1x1024_1 : (⟨S1024, .f32⟩ : BufTy).Contents (Elt F) → (⟨S1x1024, .f32⟩ : BufTy).Contents (Elt F)),
    unary main_v2 main_v5 (broadcastInDim S8192x8192 ![0, 1] bcast_S8192x1_S8192x8192_0_1 : (⟨S8192x1, .f32⟩ : BufTy).Contents (Elt F) → (⟨S8192x8192, .f32⟩ : BufTy).Contents (Elt F)),
    binary main_v0 main_v5 main_v6 (subf : (⟨S8192x8192, .f32⟩ : BufTy).Contents (Elt F) → (⟨S8192x8192, .f32⟩ : BufTy).Contents (Elt F) → (⟨S8192x8192, .f32⟩ : BufTy).Contents (Elt F)),
    unary main_v6 main_v7 (Host.exp : (⟨S8192x8192, .f32⟩ : BufTy).Contents (Elt F) → (⟨S8192x8192, .f32⟩ : BufTy).Contents (Elt F)),
    unary main_v4 main_v8 (broadcastInDim S8192x1024 ![0, 1] bcast_S1x1024_S8192x1024_0_1 : (⟨S1x1024, .f32⟩ : BufTy).Contents (Elt F) → (⟨S8192x1024, .f32⟩ : BufTy).Contents (Elt F)),
    binary main_arg0 main_v8 main_v9 (subf : (⟨S8192x1024, .f32⟩ : BufTy).Contents (Elt F) → (⟨S8192x1024, .f32⟩ : BufTy).Contents (Elt F) → (⟨S8192x1024, .f32⟩ : BufTy).Contents (Elt F)),
    unary main_v9 main_v10 (Host.exp : (⟨S8192x1024, .f32⟩ : BufTy).Contents (Elt F) → (⟨S8192x1024, .f32⟩ : BufTy).Contents (Elt F)),
    binary main_v7 main_v10 main_v11 ((fun l r => Host.dotGeneral dot_S8192x8192_S8192x1024_S8192x1024_1_0_0_1_n_n none l r) : (⟨S8192x8192, .f32⟩ : BufTy).Contents (Elt F) → (⟨S8192x1024, .f32⟩ : BufTy).Contents (Elt F) → (⟨S8192x1024, .f32⟩ : BufTy).Contents (Elt F)),
    unary main_v11 main_v12 (Host.log : (⟨S8192x1024, .f32⟩ : BufTy).Contents (Elt F) → (⟨S8192x1024, .f32⟩ : BufTy).Contents (Elt F)),
    unary main_v2 main_v13 (broadcastInDim S8192x1024 ![0, 1] bcast_S8192x1_S8192x1024_0_1 : (⟨S8192x1, .f32⟩ : BufTy).Contents (Elt F) → (⟨S8192x1024, .f32⟩ : BufTy).Contents (Elt F)),
    binary main_v12 main_v13 main_v14 (addf : (⟨S8192x1024, .f32⟩ : BufTy).Contents (Elt F) → (⟨S8192x1024, .f32⟩ : BufTy).Contents (Elt F) → (⟨S8192x1024, .f32⟩ : BufTy).Contents (Elt F)),
    unary main_v4 main_v15 (broadcastInDim S8192x1024 ![0, 1] bcast_S1x1024_S8192x1024_0_1 : (⟨S1x1024, .f32⟩ : BufTy).Contents (Elt F) → (⟨S8192x1024, .f32⟩ : BufTy).Contents (Elt F)),
    binary main_v14 main_v15 main_v16 (addf : (⟨S8192x1024, .f32⟩ : BufTy).Contents (Elt F) → (⟨S8192x1024, .f32⟩ : BufTy).Contents (Elt F) → (⟨S8192x1024, .f32⟩ : BufTy).Contents (Elt F)) ]

-- thirty-one sequencing steps reassociated, one level of recursion each
set_option maxRecDepth 4096 in
/-- The entry function is that straight line: the two called functions' definitions unfolded at their calls and the records at their
    fields, both sides are one chain of steps once sequencing is reassociated. -/
theorem main_eq (c : Dev nD) : main (F := F) c = seq ops := by
  simp only [main, fn_diag.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨nullary_bufs_sub .., binary_bufs_sub .., nullary_bufs_sub .., nullary_bufs_sub .., nullary_bufs_sub .., unary_bufs_sub ..,
    binary_bufs_sub .., binary_bufs_sub .., unary_bufs_sub .., nullary_bufs_sub .., unary_bufs_sub .., unary_bufs_sub ..,
    ternary_bufs_sub ..,
    nullary_bufs_sub .., binary_bufs_sub .., unary_bufs_sub .., nullary_bufs_sub .., binary_bufs_sub .., unary_bufs_sub ..,
    unary_bufs_sub .., binary_bufs_sub .., unary_bufs_sub .., unary_bufs_sub .., binary_bufs_sub .., unary_bufs_sub ..,
    binary_bufs_sub .., unary_bufs_sub .., unary_bufs_sub .., binary_bufs_sub .., unary_bufs_sub .., binary_bufs_sub ..⟩

/-- The fold of the thirty-one operations at the result buffer, from any contents, is `refTerm` of the two arguments'
    contents: each operation's result is read at its own buffer and every other buffer is left as it was; the typed
    references of the two called functions carry their values along type equations that are identities at these literal
    buffers; what remains is `refTerm` with its stages unfolded. -/
theorem out_eq (V : Valuation τ sig (Elt F)) :
    after ops V (Proc.devRef .tc main_v16)
      = refTerm (V (Proc.devRef .tc main_arg0)) (V (Proc.devRef .tc main_arg1)) := by
  after_results_simp
  simp only [TRef.ofBuf, TRef.toBuf, cast_eq]
  delta refTerm lhsTerm rhsTerm mACol mBRow rowMaxTerm colMaxTerm diagTerm
  rfl

/-- No operation writes the first argument's buffer. -/
theorem arg0_eq (V : Valuation τ sig (Elt F)) :
    after ops V (Proc.devRef .tc main_arg0) = V (Proc.devRef .tc main_arg0) := by
  after_results_simp

/-- No operation writes the second argument's buffer. -/
theorem arg1_eq (V : Valuation τ sig (Elt F)) :
    after ops V (Proc.devRef .tc main_arg1) = V (Proc.devRef .tc main_arg1) := by
  after_results_simp

/-- On every device, for any float values, from any memory with zero counters: every weakly fair execution of the
    reference terminates with its result at `refTerm` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v16)
        = refTerm (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  exact (θ_run defs _ _).mono (fun _ h c => ⟨(h c main_v16).trans (out_eq _), (h c main_arg0).trans (arg0_eq _),
      (h c main_arg1).trans (arg1_eq _)⟩)
    (run_seq scopedRefs_eq scopedSems_eq defs main (fun _ => ops) main_eq (fun _ => ops_sub) m ρ)

end Cert.ReferenceIdeal.Hand

end
-- ==== Proof.RefRead.lean ====
/-
  The reference's result read at an index, at the ideal instance: entry (i, j) of the composed term is the
  specification's `refOut` of the two arguments read by coordinates. One lemma per stage of the term: the diagonal
  matrix, the two reductions by maximum, the two maxima kept as a column and as a row, the two stabilised exponentials,
  the product as a sum over the contracted coordinate, and last the logarithm with the two maxima added back.
-/
import proofs.«406681_j1348619731342_3_alg».proof.Proof.Gen.ReferenceIdeal
import proofs.«406681_j1348619731342_3_alg».proof.Proof.RefTerm
import proofs.«406681_j1348619731342_3_alg».proof.Proof.Spec
import Idealize.ShloMosaic.Lib.ValueIdx
import Idealize.ShloMosaic.PureOps.Ideal.Laws
import Idealize.ShloMosaic.PureOps.Reduce
import Idealize.ShloMosaic.Lib.StackMember
import Idealize.ShloMosaic.Lib.StableHlo.Predicate

noncomputable section

namespace Cert.ReferenceIdeal.HandRead

open Cert.ReferenceIdeal Cert.ReferenceIdeal.Gen Cert.ReferenceIdeal.Hand Idealize.ShloMosaic Idealize.ShloMosaic.ValueIdx

/-! ### Layout operations read at an index -/

section Layout
variable {α : Type}

/-- A column laid across the columns of a rectangle reads, at (i, k), the column's entry of row i. -/
private theorem bcastCol_apply {m : Nat} (h : S8192x1.BroadcastsInDim ⟨2, ![8192, m]⟩ ![0, 1])
    (v : S8192x1.Idx → α) (i : Fin 8192) (k : Fin m) :
    broadcastInDim ⟨2, ![8192, m]⟩ ![0, 1] h v (ix2 i k) = v (ix2 i (0 : Fin 1)) :=
  congrArg v (funext fun c => Fin.ext (by fin_cases c <;> rfl))

/-- A row laid down the rows of a rectangle reads, at (i, j), the row's entry of column j. -/
private theorem bcastRow_apply {n : Nat} (h : S1x1024.BroadcastsInDim ⟨2, ![n, 1024]⟩ ![0, 1])
    (v : S1x1024.Idx → α) (i : Fin n) (j : Fin 1024) :
    broadcastInDim ⟨2, ![n, 1024]⟩ ![0, 1] h v (ix2 i j) = v (ix2 (0 : Fin 1) j) :=
  congrArg v (funext fun c => Fin.ext (by fin_cases c <;> rfl))

/-- A vector kept as a column reads, at (i, 0), the vector's entry i. -/
private theorem asCol_apply (h : S8192.BroadcastsInDim S8192x1 ![0]) (v : S8192.Idx → α) (i : Fin 8192) :
    broadcastInDim S8192x1 ![0] h v (ix2 i (0 : Fin 1)) = v (ix1 i) :=
  congrArg v (funext fun c => Fin.ext (by fin_cases c; rfl))

/-- A vector kept as a row reads, at (0, j), the vector's entry j. -/
private theorem asRow_apply (h : S1024.BroadcastsInDim S1x1024 ![1]) (v : S1024.Idx → α) (j : Fin 1024) :
    broadcastInDim S1x1024 ![1] h v (ix2 (0 : Fin 1) j) = v (ix1 j) :=
  congrArg v (funext fun c => Fin.ext (by fin_cases c; rfl))

/-- A scalar laid over a rectangle reads the scalar everywhere. -/
private theorem bcastScalar_apply {t : Shape} (h : S_.BroadcastsInDim t ![]) (v : S_.Idx → α) (j : t.Idx) :
    broadcastInDim t ![] h v j = v ix0 :=
  congrArg v (funext fun c => c.elim0)

/-- Padding by nothing on either side and nothing between the entries changes no entry. -/
private theorem padNone_apply {u : Shape} (d : S8192.Idx → α) (v : u.Idx → α) (h : S8192.Pads ![0] ![0] ![0] S8192)
    (hu : 0 < u.numel) (i : Fin 8192) :
    pad S8192 ![0] ![0] ![0] d v h hu (ix1 i) = d (ix1 i) := by
  unfold pad
  split
  · exact congrArg d (funext fun c => Fin.ext (by fin_cases c; simp))
  · next hn =>
    exact absurd (fun a => by fin_cases a; simp; exact Nat.mod_one _) hn

end Layout

/-! ### The diagonal matrix -/

/-- Below 8192 two naturals with the same 32-bit word are equal. -/
private theorem ofNat32_inj {a b : Nat} (ha : a < 8192) (hb : b < 8192) (e : BitVec.ofNat 32 a = BitVec.ofNat 32 b) : a = b := by
  have := congrArg BitVec.toNat e
  simp only [BitVec.toNat_ofNat] at this
  omega

/-- The condition word of the diagonal matrix at (i, k) — the row index plus zero compared with the column index — is
    set exactly on the diagonal. -/
private theorem diagCond_iff (i k : Fin 8192) :
    IntOp.cmpi .eq (IntOp.addi (BitVec.ofNat 32 i.val) 0#32) (BitVec.ofNat 32 k.val) = 1#1 ↔ i = k := by
  have e0 : IntOp.addi (BitVec.ofNat 32 i.val) 0#32 = BitVec.ofNat 32 i.val := by
    show BitVec.ofNat 32 i.val + 0#32 = _
    exact BitVec.add_zero _
  rw [e0, StableHlo.Predicate.cmpi_eq_iff]
  exact ⟨fun h => Fin.ext (ofNat32_inj i.isLt k.isLt h), fun h => by rw [h]⟩

/-- Entry (i, k) of the diagonal matrix: the vector's entry i on the diagonal, zero off it. -/
theorem diagTerm_apply (d : FVec Ideal S8192 .f32) (i k : Fin 8192) :
    diagTerm (F := Ideal) d (ix2 i k) = Cert.Spec.dmat (Cert.Spec.dOf d) i k := by
  unfold diagTerm
  rw [select_apply, bcastCol_apply, asCol_apply, padNone_apply, bcastScalar_apply]
  show Scalar.select (IntOp.cmpi .eq (IntOp.addi (BitVec.ofNat 32 i.val) 0#32) (BitVec.ofNat 32 k.val)) (d (ix1 i))
      (Ideal.ofBits .f32 0x00000000#32) = _
  rw [Ideal.ofBits_zero_f32]
  unfold Cert.Spec.dmat Cert.Spec.dOf
  by_cases hik : i = k
  · rw [(diagCond_iff i k).2 hik, select_one, if_pos hik]
  · rw [eq_zero_of_ne_one (fun hc => hik ((diagCond_iff i k).1 hc)), select_zero, if_neg hik]

/-! ### The two maxima -/

/-- The word 0xFF800000 is minus infinity. -/
private theorem negInf_eq : Ideal.ofBits .f32 0xFF800000#32 = (⊥ : EReal) := by simp [Ideal.ofBits, Ideal.ieee]

/-- The row index i with column k put back is (i, k). -/
private theorem lift_row (h : S8192x8192.Reduces [1] S8192) (i : Fin 8192) (k : Fin (S8192x8192.size 1)) :
    h.lift (ix1 i) k = ix2 i (⟨k.val, k.isLt⟩ : Fin 8192) := by
  funext c; apply Fin.ext
  fin_cases c <;> rfl

/-- The column index j with row k put back is (k, j). -/
private theorem lift_col (h : S8192x1024.Reduces [0] S1024) (j : Fin 1024) (k : Fin (S8192x1024.size 0)) :
    h.lift (ix1 j) k = ix2 (⟨k.val, k.isLt⟩ : Fin 8192) j := by
  funext c; apply Fin.ext
  fin_cases c <;> rfl

/-- From minus infinity the reduction by maximum along the columns is, at row i, the fold of `max` from `⊥` over that row. -/
theorem rowMaxTerm_apply (D : FVec Ideal S8192x8192 .f32) (i : Fin 8192) :
    rowMaxTerm (F := Ideal) D (ix1 i) = (Finset.univ : Finset (Fin 8192)).fold max ⊥ (fun k => D (ix2 i k)) := by
  have h : S8192x8192.Reduces [1] S8192 := by decide
  unfold rowMaxTerm
  rw [Host.reduce_eq_fold_single FloatOps.maximumf D _ _ h]
  have hf : (D ∘ h.lift (ix1 i)) = fun k : Fin 8192 => D (ix2 i k) := funext fun k => congrArg D (lift_row h i k)
  show Finset.fold max (Ideal.ofBits .f32 0xFF800000#32) (D ∘ h.lift (ix1 i)) (Finset.univ : Finset (Fin 8192)) = _
  rw [hf, negInf_eq]
  rfl

/-- From minus infinity the reduction by maximum along the rows is, at column j, the fold of `max` from `⊥` over that column. -/
theorem colMaxTerm_apply (x : FVec Ideal S8192x1024 .f32) (j : Fin 1024) :
    colMaxTerm (F := Ideal) x (ix1 j) = (Finset.univ : Finset (Fin 8192)).fold max ⊥ (fun k => x (ix2 k j)) := by
  have h : S8192x1024.Reduces [0] S1024 := by decide
  unfold colMaxTerm
  rw [Host.reduce_eq_fold_single FloatOps.maximumf x _ _ h]
  have hf : (x ∘ h.lift (ix1 j)) = fun k : Fin 8192 => x (ix2 k j) := funext fun k => congrArg x (lift_col h j k)
  show Finset.fold max (Ideal.ofBits .f32 0xFF800000#32) (x ∘ h.lift (ix1 j)) (Finset.univ : Finset (Fin 8192)) = _
  rw [hf, negInf_eq]
  rfl

/-- The row maxima of the diagonal matrix are the specification's. -/
theorem rowMax_apply (d : FVec Ideal S8192 .f32) (i : Fin 8192) :
    rowMaxTerm (F := Ideal) (diagTerm d) (ix1 i) = Cert.Spec.rowMax (Cert.Spec.dOf d) i := by
  rw [rowMaxTerm_apply]
  unfold Cert.Spec.rowMax
  exact congrArg (fun f => Finset.fold max ⊥ f (Finset.univ : Finset (Fin 8192))) (funext fun k => diagTerm_apply d i k)

/-- The column maxima of the input matrix are the specification's. -/
theorem colMax_apply (x : FVec Ideal S8192x1024 .f32) (j : Fin 1024) :
    colMaxTerm (F := Ideal) x (ix1 j) = Cert.Spec.colMax (Cert.Spec.xOf x) j := by
  rw [colMaxTerm_apply]
  rfl

/-- The row maxima as a column, at (i, 0). -/
theorem mACol_apply (d : FVec Ideal S8192 .f32) (i : Fin 8192) :
    mACol (F := Ideal) d (ix2 i (0 : Fin 1)) = Cert.Spec.rowMax (Cert.Spec.dOf d) i := by
  unfold mACol
  rw [asCol_apply, rowMax_apply]

/-- The column maxima as a row, at (0, j). -/
theorem mBRow_apply (x : FVec Ideal S8192x1024 .f32) (j : Fin 1024) :
    mBRow (F := Ideal) x (ix2 (0 : Fin 1) j) = Cert.Spec.colMax (Cert.Spec.xOf x) j := by
  unfold mBRow
  rw [asRow_apply, colMax_apply]

/-! ### The two stabilised exponentials -/

/-- The exponential at an index is the extended reals' exponential of the entry. -/
private theorem hostExp_apply {s : Shape} (v : FVec Ideal s .f32) (i : s.Idx) : Host.exp v i = Ideal.exp (v i) := rfl

/-- The logarithm at an index is the extended reals' logarithm of the entry. -/
private theorem hostLog_apply {s : Shape} (v : FVec Ideal s .f32) (i : s.Idx) : Host.log v i = Ideal.log (v i) := rfl

/-- Entry (i, k) of the left factor: the exponential of the diagonal matrix's entry less its row's maximum. -/
theorem lhsTerm_apply (d : FVec Ideal S8192 .f32) (i k : Fin 8192) :
    lhsTerm (F := Ideal) d (ix2 i k)
      = Ideal.exp (Cert.Spec.dmat (Cert.Spec.dOf d) i k - Cert.Spec.rowMax (Cert.Spec.dOf d) i) := by
  unfold lhsTerm
  rw [hostExp_apply, subf_apply, bcastCol_apply, diagTerm_apply, mACol_apply]

/-- Entry (k, j) of the right factor: the column-stabilised exponential. -/
theorem rhsTerm_apply (x : FVec Ideal S8192x1024 .f32) (k : Fin 8192) (j : Fin 1024) :
    rhsTerm (F := Ideal) x (ix2 k j) = Cert.Spec.ecol (Cert.Spec.xOf x) k j := by
  unfold rhsTerm
  rw [hostExp_apply, subf_apply, bcastRow_apply, mBRow_apply]
  rfl

/-! ### The product -/

/-- Entry (i, j) of the product of the two factors is the sum over the contracted coordinate of the entries' products:
    the record's dimension numbers are those of the plain matrix product. -/
theorem dot_apply (A : FVec Ideal S8192x8192 .f32) (B : FVec Ideal S8192x1024 .f32) (i : Fin 8192) (j : Fin 1024) :
    Host.dotGeneral dot_S8192x8192_S8192x1024_S8192x1024_1_0_0_1_n_n none A B (ix2 i j)
      = ∑ k : Fin 8192, A (ix2 i k) * B (ix2 k j) :=
  StackMember.dotGeneral_plain_apply none A B i j

/-! ### The reference's result -/

/-- Entry (i, j) of the reference's result is `refOut` of the arguments read by coordinates. -/
theorem refTerm_apply (x : FVec Ideal S8192x1024 .f32) (d : FVec Ideal S8192 .f32) (i : Fin 8192) (j : Fin 1024) :
    refTerm (F := Ideal) x d (ix2 i j) = Cert.Spec.refOut (Cert.Spec.dOf d) (Cert.Spec.xOf x) i j := by
  unfold refTerm
  rw [addf_apply, addf_apply, hostLog_apply, bcastCol_apply, bcastRow_apply, dot_apply, mACol_apply, mBRow_apply]
  unfold Cert.Spec.refOut
  refine congrArg (fun s => Ideal.log s + _ + _) (Finset.sum_congr rfl fun k _ => ?_)
  rw [lhsTerm_apply, rhsTerm_apply]

end Cert.ReferenceIdeal.HandRead

end
-- ==== Proof.FiniteIn.lean ====
/-
  The precondition read at the ideal instance: where both arguments satisfy "every absolute value is below plus
  infinity", every entry of both is neither infinity, that is, a real number.
-/
import proofs.«406681_j1348619731342_3_alg».proof.Defs
import proofs.«406681_j1348619731342_3_alg».proof.Proof.Gen.KernelIdeal
import proofs.«406681_j1348619731342_3_alg».proof.Proof.Gen.Pre_finite_inputs
import Idealize.ShloMosaic.Lib.ValueIdx
import Idealize.ShloMosaic.Lib.ReduceAll
import Idealize.ShloMosaic.Lib.StableHlo.Predicate
import Idealize.ShloMosaic.PureOps.Ideal.Laws

noncomputable section

namespace Cert.Proof.FiniteIn

open Idealize.ShloMosaic Idealize.ShloMosaic.TcCoe Idealize.ShloMosaic.ValueIdx Idealize.SL.Sem
open Cert.KernelIdeal

/-- The single-precision pattern 0x7F800000 (sign 0, exponent all ones, fraction 0) denotes plus infinity. -/
theorem ofBits_inf : Ideal.ofBits .f32 0x7F800000#32 = (⊤ : EReal) := by simp [Ideal.ofBits, Ideal.ieee]

/-- An extended real whose absolute value max x (-x) is strictly below plus infinity is neither infinity:
    at x = ⊤ the maximum is ⊤ itself, and at x = ⊥ the negation -⊥ = ⊤ makes it ⊤ again, so neither is below ⊤. -/
theorem ne_top_bot_of_abs_lt (x : EReal) (hx : Ideal.cmp .olt (max x (-x)) (⊤ : EReal) = 1#1) : x ≠ ⊤ ∧ x ≠ ⊥ := by
  have h' : max x (-x) < ⊤ := by
    simpa [Ideal.cmp, StableHlo.Predicate.ofBool_eq_one_iff] using hx
  constructor
  · rintro rfl; simp at h'
  · rintro rfl; simp at h'

/-- Under the precondition every entry of the matrix argument and of the diagonal argument is finite. -/
theorem finite_of_pre (m : (ℓ : Loc nD τ sig) → Buf (Elt Ideal) ℓ) (h : Cert.Pre_KernelIdeal m) (c : Dev nD) :
    (∀ idx, m ((c.tc : Thread nD τ).loc main_arg0) idx ≠ (⊤ : EReal) ∧ m ((c.tc : Thread nD τ).loc main_arg0) idx ≠ (⊥ : EReal))
    ∧ (∀ idx, m ((c.tc : Thread nD τ).loc main_arg1) idx ≠ (⊤ : EReal) ∧ m ((c.tc : Thread nD τ).loc main_arg1) idx ≠ (⊥ : EReal)) := by
  -- a rank-0 shape has exactly one index
  haveI : Subsingleton Cert.Pre_finite_inputs.S_.Idx := ⟨fun a b => funext fun d => d.elim0⟩
  -- the predicate's one bit is 1; it is the conjunction of the two "all" reductions, so each of them is 1
  have h0 := congrFun (h c) ValueIdx.ix0
  dsimp only [Cert.Pre_finite_inputs.fn] at h0
  obtain ⟨ha, hb⟩ := IntOp.andi_eq_one.1 h0
  refine ⟨fun idx => ?_, fun idx => ?_⟩
  · -- an and-reduction over all axes that is 1 met a 1 at every entry: |x idx| < +inf as a one-bit word
    have e := Host.reduce_andi_all _ _ _ _ _ ha idx
    refine ne_top_bot_of_abs_lt _ ?_
    rw [← e]
    -- the compared entry is max x (-x), and the broadcast scalar constant reads +inf at every index
    simp only [cmpf, Host.absf, StableHlo.Predicate.bcast_scalar _ Cert.Pre_finite_inputs.Facts.h_S_, constant, Ideal.ofBits_def, ofBits_inf]
    rfl
  · -- the same for the diagonal argument
    have e := Host.reduce_andi_all _ _ _ _ _ hb idx
    refine ne_top_bot_of_abs_lt _ ?_
    rw [← e]
    simp only [cmpf, Host.absf, StableHlo.Predicate.bcast_scalar _ Cert.Pre_finite_inputs.Facts.h_S_, constant, Ideal.ofBits_def, ofBits_inf]
    rfl

end Cert.Proof.FiniteIn

end
-- ==== Proof.lean ====
/-
  The certificate of the closed-form kernel for the log-matrix-exponential of a diagonal matrix against a matrix.

  The reference builds the diagonal matrix D of the vector d, takes its row maxima mA and the column maxima mB of the
  matrix x, and returns log (exp (D - mA) · exp (x - mB)) + mA + mB. The kernel never builds D: on the host it computes
  c = max (d, 0), b = exp (-c) and the stable difference exp (d - c) - exp (-c) (by the sign of d, through exp · - 1); then,
  one column slab of 256 columns per grid point, it takes the slab's column maxima mB, e = exp (x - mB), the column sums
  S of e, and stores (c + mB) + log (max (b · S + diff · e, 0)).

  Over the extended reals, at finite d and x, the two agree entry by entry: row i of D holds d i on the diagonal and 0
  elsewhere, so its maximum is c i (there are at least two columns); the product's entry (i, j) is
  exp (d i - c i) · e i j + exp (-(c i)) · (S j - e i j) = b i · S j + diff i · e i j, a positive real, so the maximum with 0
  is the identity; and the outer sums differ by the order of addition only. That identity is the specification module's;
  the kernel's result array is read off its run block by block, the reference's off its run operation by operation, and
  the precondition gives the finiteness the identity needs.

  The three frames: each program terminates, faults nowhere and leaves both arguments as given — the two kernel programs
  by the pipeline's frame theorem over the body's triple, the reference as its run with the result dropped. The
  idealization rewrote nothing, so there is nothing to preserve.
-/
import proofs.«406681_j1348619731342_3_alg».proof.Defs
import proofs.«406681_j1348619731342_3_alg».proof.Proof.Gen.Kernel
import proofs.«406681_j1348619731342_3_alg».proof.Proof.Gen.KernelIdeal
import proofs.«406681_j1348619731342_3_alg».proof.Proof.Gen.ReferenceIdeal
import proofs.«406681_j1348619731342_3_alg».proof.Proof.Gen.Pre_finite_inputs
import proofs.«406681_j1348619731342_3_alg».proof.Proof.KFrame
import proofs.«406681_j1348619731342_3_alg».proof.Proof.KIFrame
import proofs.«406681_j1348619731342_3_alg».proof.Proof.KIValue
import proofs.«406681_j1348619731342_3_alg».proof.Proof.RefRun
import proofs.«406681_j1348619731342_3_alg».proof.Proof.RefRead
import proofs.«406681_j1348619731342_3_alg».proof.Proof.FiniteIn
import proofs.«406681_j1348619731342_3_alg».proof.Proof.Spec
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel program terminates, faults nowhere and leaves its arguments unchanged. -/
theorem frame_k : Cert.frame_Kernel := fun m ρ _ => Cert.Kernel.Hand.frame m ρ
/-- So does the idealized kernel program. -/
theorem frame_ki : Cert.frame_KernelIdeal := fun m ρ _ => Cert.KernelIdeal.Hand.frame m ρ
/-- So does the reference: its run with the result dropped. -/
theorem frame_ri : Cert.frame_ReferenceIdeal := fun m ρ _ =>
  (θ_run Cert.ReferenceIdeal.defs _ _).mono (fun _ h c => (h c).2) (Cert.ReferenceIdeal.Hand.run (F := Ideal) m ρ)

/-- The idealization rewrote no operation. -/
theorem preserves : Cert.preserves_Kernel_KernelIdeal := trivial

/-- At finite arguments the reference's result array is the kernel's: index by index the reference's entry and the
    closed form agree (the specification's identity; 8192 rows are at least two). -/
theorem result_eq (x : (⟨2, ![8192, 1024]⟩ : Shape).Idx → EReal) (d : (⟨1, ![8192]⟩ : Shape).Idx → EReal)
    (hx : ∀ idx, x idx ≠ ⊤ ∧ x idx ≠ ⊥) (hd : ∀ idx, d idx ≠ ⊤ ∧ d idx ≠ ⊥) :
    Cert.ReferenceIdeal.Hand.refTerm (F := Ideal) x d = Cert.KernelIdeal.HandValue.Gk x d := by
  funext idx
  obtain ⟨i, j, rfl⟩ : ∃ (i : Fin 8192) (j : Fin 1024), idx = ix2 i j := ⟨idx 0, idx 1, eq_ix2 idx⟩
  rw [Cert.ReferenceIdeal.HandRead.refTerm_apply]
  show _ = Cert.Spec.kerOut (Cert.Spec.dOf d) (Cert.Spec.xOf x) i j
  exact (Cert.Spec.kerOut_eq_refOut (by norm_num) _ _ (fun i => hd (ix1 i)) (fun k j => hx (ix2 k j)) i j).symm

/-- From memories agreeing on the arguments both idealized programs run to the same result array. -/
theorem algebraic : Cert.algebraic_KernelIdeal_ReferenceIdeal := by
  intro m ρ m' ρ' hpre hagree
  refine ⟨fun c => Cert.KernelIdeal.HandValue.Gk
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.HandValue.run m ρ, ?_⟩
  refine (θ_run Cert.ReferenceIdeal.defs _ _).mono (fun _ h c => ⟨(h c).1.trans ?_, (h c).2⟩)
    (Cert.ReferenceIdeal.Hand.run (F := Ideal) m' ρ')
  rw [(hagree c).1, (hagree c).2]
  obtain ⟨hx, hd⟩ := Cert.Proof.FiniteIn.finite_of_pre m hpre c
  exact result_eq _ _ hx hd

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
